-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x27x512x512 : Shape := ⟨4, ![32, 27, 512, 512]⟩
abbrev S1x3x128x512 : Shape := ⟨4, ![1, 3, 128, 512]⟩
abbrev S1x27x128x512 : Shape := ⟨4, ![1, 27, 128, 512]⟩
abbrev S3x128x512 : Shape := ⟨3, ![3, 128, 512]⟩
abbrev S9x128x512 : Shape := ⟨3, ![9, 128, 512]⟩
abbrev S1x128x512 : Shape := ⟨3, ![1, 128, 512]⟩
abbrev S128x512 : Shape := ⟨2, ![128, 512]⟩
abbrev S18x128x512 : Shape := ⟨3, ![18, 128, 512]⟩
abbrev S27x128x512 : Shape := ⟨3, ![27, 128, 512]⟩

abbrev nBuf : Space → Nat
  | .hbm => 2
  | .vmem => 4
  | .smem => 0
  | _ => 0

abbrev bufTy : (tb : Table) → Fin (tcTables nBuf tb) → BufTy
  | .hbm, ⟨0, _⟩ => ⟨S32x3x512x512, .f32⟩
  | .hbm, ⟨1, _⟩ => ⟨S32x27x512x512, .f32⟩
  | .local _ .vmem, ⟨0, _⟩ => ⟨S1x3x128x512, .f32⟩
  | .local _ .vmem, ⟨1, _⟩ => ⟨S1x3x128x512, .f32⟩
  | .local _ .vmem, ⟨2, _⟩ => ⟨S1x27x128x512, .f32⟩
  | .local _ .vmem, ⟨3, _⟩ => ⟨S1x27x128x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x27x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x3x128x512_S1x3x128x512_0_0_0_0 : ∀ a, (![0, 0, 0, 0] : Fin 4 → Nat) a + S1x3x128x512.size a ≤ S1x3x128x512.size a
  h_S1x3x128x512 : 0 < S1x3x128x512.numel
  shapeCasts_S1x3x128x512_S3x128x512 : S1x3x128x512.ShapeCasts S3x128x512
  concatenates_S3x128x512_S3x128x512_S3x128x512_S9x128x512_d0 : Shape.Concatenates [S3x128x512, S3x128x512, S3x128x512] S9x128x512 0
  slices_S9x128x512_o0_0_0_S1x128x512 : S9x128x512.Slices ![0, 0, 0] S1x128x512
  shapeCasts_S1x128x512_S128x512 : S1x128x512.ShapeCasts S128x512
  slices_S9x128x512_o3_0_0_S1x128x512 : S9x128x512.Slices ![3, 0, 0] S1x128x512
  slices_S9x128x512_o6_0_0_S1x128x512 : S9x128x512.Slices ![6, 0, 0] S1x128x512
  slices_S9x128x512_o1_0_0_S1x128x512 : S9x128x512.Slices ![1, 0, 0] S1x128x512
  slices_S9x128x512_o4_0_0_S1x128x512 : S9x128x512.Slices ![4, 0, 0] S1x128x512
  slices_S9x128x512_o7_0_0_S1x128x512 : S9x128x512.Slices ![7, 0, 0] S1x128x512
  slices_S9x128x512_o2_0_0_S1x128x512 : S9x128x512.Slices ![2, 0, 0] S1x128x512
  slices_S9x128x512_o5_0_0_S1x128x512 : S9x128x512.Slices ![5, 0, 0] S1x128x512
  slices_S9x128x512_o8_0_0_S1x128x512 : S9x128x512.Slices ![8, 0, 0] S1x128x512
  shapeCasts_S128x512_S1x128x512 : S128x512.ShapeCasts S1x128x512
  concatenates_S1x128x512_S1x128x512_S1x128x512_S1x128x512_S1x128x512_S1x128x512_S1x128x512_S1x128x512_S1x128x512_S1x128x512_S1x128x512_S1x128x512_S1x128x512_S1x128x512_S1x128x512_S1x128x512_S1x128x512_S1x128x512_S18x128x512_d0 : Shape.Concatenates [S1x128x512, S1x128x512, S1x128x512, S1x128x512, S1x128x512, S1x128x512, S1x128x512, S1x128x512, S1x128x512, S1x128x512, S1x128x512, S1x128x512, S1x128x512, S1x128x512, S1x128x512, S1x128x512, S1x128x512, S1x128x512] S18x128x512 0
  concatenates_S9x128x512_S18x128x512_S27x128x512_d0 : Shape.Concatenates [S9x128x512, S18x128x512] S27x128x512 0
  inb_S1x27x128x512_S1x27x128x512_0_0_0_0 : ∀ a, (![0, 0, 0, 0] : Fin 4 → Nat) a + S1x27x128x512.size a ≤ S1x27x128x512.size a
  h_S1x27x128x512 : 0 < S1x27x128x512.numel
  shapeCasts_S1x27x128x512_S27x128x512 : S1x27x128x512.ShapeCasts S27x128x512
  shapeCasts_S27x128x512_S1x27x128x512 : S27x128x512.ShapeCasts S1x27x128x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x128x512.size a ≤ S32x3x512x512.size a
  hwx0_0 : ∀ i : grid0.Coords, EltTy.bits .f32 = 32 ∨ (Rect.block (s := S32x3x512x512) S1x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x27x128x512.size a ≤ S32x27x512x512.size a
  hwx0_1 : ∀ i : grid0.Coords, EltTy.bits .f32 = 32 ∨ (Rect.block (s := S32x27x512x512) S1x27x128x512.size (cc0_transform_1 i) (hinb0_1 i)).WholeWords (EltTy.packing .f32)

variable [Facts₀]

abbrev win0_0 : Pipeline.Window sig grid0 :=
  Pipeline.Window.ofSpec (Memref.whole main_arg0) S1x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x27x128x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S18 : Shape := ⟨1, ![18]⟩
abbrev S32x9x512x512 : Shape := ⟨4, ![32, 9, 512, 512]⟩
abbrev S_ : Shape := ⟨0, ![]⟩
abbrev S18x1 : Shape := ⟨2, ![18, 1]⟩
abbrev S32x18x512x512 : Shape := ⟨4, ![32, 18, 512, 512]⟩
abbrev S32x27x512x512 : Shape := ⟨4, ![32, 27, 512, 512]⟩

abbrev nBuf : Space → Nat
  | .hbm => 22
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S18, .i32⟩
  | .hbm, ⟨2, _⟩ => ⟨S18, .i1⟩
  | .hbm, ⟨3, _⟩ => ⟨S18, .i32⟩
  | .hbm, ⟨4, _⟩ => ⟨S18, .i1⟩
  | .hbm, ⟨5, _⟩ => ⟨S32x3x512x512, .f32⟩
  | .hbm, ⟨6, _⟩ => ⟨S32x3x512x512, .f32⟩
  | .hbm, ⟨7, _⟩ => ⟨S32x9x512x512, .f32⟩
  | .hbm, ⟨8, _⟩ => ⟨S_, .i32⟩
  | .hbm, ⟨9, _⟩ => ⟨S18, .i32⟩
  | .hbm, ⟨10, _⟩ => ⟨S18, .i32⟩
  | .hbm, ⟨11, _⟩ => ⟨S18, .i32⟩
  | .hbm, ⟨12, _⟩ => ⟨S18x1, .i32⟩
  | .hbm, ⟨13, _⟩ => ⟨S32x18x512x512, .f32⟩
  | .hbm, ⟨14, _⟩ => ⟨S_, .i32⟩
  | .hbm, ⟨15, _⟩ => ⟨S18, .i32⟩
  | .hbm, ⟨16, _⟩ => ⟨S18, .i32⟩
  | .hbm, ⟨17, _⟩ => ⟨S18, .i32⟩
  | .hbm, ⟨18, _⟩ => ⟨S18x1, .i32⟩
  | .hbm, ⟨19, _⟩ => ⟨S32x18x512x512, .f32⟩
  | .hbm, ⟨20, _⟩ => ⟨S32x18x512x512, .f32⟩
  | .hbm, ⟨21, _⟩ => ⟨S32x27x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  concatenates_S32x3x512x512_S32x3x512x512_S32x3x512x512_S32x9x512x512_d1 : Shape.Concatenates [S32x3x512x512, S32x3x512x512, S32x3x512x512] S32x9x512x512 1
  bcast_S_S18 : S_.BroadcastsInDim S18 (![] : Fin 0 → Fin S18.rank)
  bcast_S18_S18x1_0 : S18.BroadcastsInDim S18x1 (![0] : Fin 1 → Fin S18x1.rank)
  concatenates_S32x9x512x512_S32x18x512x512_S32x27x512x512_d1 : Shape.Concatenates [S32x9x512x512, S32x18x512x512] S32x27x512x512 1
  gather_S32x9x512x512_S18x1_S32x18x512x512_023_1_n_n_1_1_321512512_wf : GatherDims.WF S32x9x512x512 S18x1 S32x18x512x512 [0, 2, 3] [1] [] [1] [] 1 ![32, 1, 512, 512]

variable [Facts₀]

def gather_S32x9x512x512_S18x1_S32x18x512x512_023_1_n_n_1_1_321512512 : GatherDims S32x9x512x512 S18x1 S32x18x512x512 where
  offsetDims := [0, 2, 3]
  collapsedSliceDims := [1]
  operandBatchingDims := []
  startIndicesBatchingDims := []
  startIndexMap := [1]
  indexVectorDim := 1
  sliceSizes := ![32, 1, 512, 512]
  wf := gather_S32x9x512x512_S18x1_S32x18x512x512_023_1_n_n_1_1_321512512_wf

class Facts : Prop extends Facts₀ where

variable [Facts]
-- ==== Proof.Features.lean ====
/-
  The function both programs compute. Every output element depends only on the three input channels at its own
  batch, row and column. From those three numbers `f 0, f 1, f 2` the nine BASE channels are
  `f 0, f 1, f 2, cos (f 0), cos (f 1), cos (f 2), sin (f 0), sin (f 1), sin (f 2)`; output channels 0-8 are
  the base channels, and output channel `9 + k` is the product of base channels `fstCh k` and `sndCh k`, the
  eighteen pairs `(i, j)` with `i ≤ j` and `j ≡ i (mod 3)` in lexicographic order.
-/
import Idealize.ShloMosaic.PureOps.Ideal
import Idealize.ShloMosaic.Lib.ValueIdx

noncomputable section

namespace Cert.Features

open Idealize.ShloMosaic Idealize.ShloMosaic.ValueIdx

/-- The base channel of the first factor of product `k`. -/
def fstCh : Fin 18 → Fin 9 := ![0, 0, 0, 1, 1, 1, 2, 2, 2, 3, 3, 4, 4, 5, 5, 6, 7, 8]
/-- The base channel of the second factor of product `k`. -/
def sndCh : Fin 18 → Fin 9 := ![0, 3, 6, 1, 4, 7, 2, 5, 8, 3, 6, 4, 7, 5, 8, 6, 7, 8]

/-- The nine base channels of one position: the three inputs, their cosines, their sines. -/
def base (f : Fin 3 → EReal) (c : Fin 9) : EReal :=
  if h3 : c.val < 3 then f ⟨c.val, h3⟩
  else if h6 : c.val < 6 then Ideal.cos (f ⟨c.val - 3, by omega⟩)
  else Ideal.sin (f ⟨c.val - 6, by have := c.isLt; omega⟩)

/-- The twenty-seven output channels of one position: the nine base channels, then the eighteen products. -/
def feature (f : Fin 3 → EReal) (ch : Fin 27) : EReal :=
  if h9 : ch.val < 9 then base f ⟨ch.val, h9⟩
  else base f (fstCh ⟨ch.val - 9, by have := ch.isLt; omega⟩) * base f (sndCh ⟨ch.val - 9, by have := ch.isLt; omega⟩)

theorem feature_lt (f : Fin 3 → EReal) (ch : Fin 27) (h9 : ch.val < 9) : feature f ch = base f ⟨ch.val, h9⟩ := dif_pos h9

theorem feature_ge (f : Fin 3 → EReal) (ch : Fin 27) (k : Fin 18) (hk : ch.val = 9 + k.val) :
    feature f ch = base f (fstCh k) * base f (sndCh k) := by
  have h9 : ¬ ch.val < 9 := by omega
  have e : (⟨ch.val - 9, by have := ch.isLt; omega⟩ : Fin 18) = k := Fin.ext (by show ch.val - 9 = k.val; omega)
  unfold feature
  rw [dif_neg h9, e]

theorem base_lo (f : Fin 3 → EReal) (c : Fin 9) (a : Fin 3) (h : c.val = a.val) : base f c = f a := by
  have h3 : c.val < 3 := by have := a.isLt; omega
  unfold base
  rw [dif_pos h3]
  exact congrArg f (Fin.ext h)

theorem base_cos (f : Fin 3 → EReal) (c : Fin 9) (a : Fin 3) (h : c.val = 3 + a.val) : base f c = Ideal.cos (f a) := by
  have h3 : ¬ c.val < 3 := by omega
  have h6 : c.val < 6 := by have := a.isLt; omega
  unfold base
  rw [dif_neg h3, dif_pos h6]
  exact congrArg (fun z => Ideal.cos (f z)) (Fin.ext (by show c.val - 3 = a.val; omega))

theorem base_sin (f : Fin 3 → EReal) (c : Fin 9) (a : Fin 3) (h : c.val = 6 + a.val) : base f c = Ideal.sin (f a) := by
  have h3 : ¬ c.val < 3 := by omega
  have h6 : ¬ c.val < 6 := by omega
  unfold base
  rw [dif_neg h3, dif_neg h6]
  exact congrArg (fun z => Ideal.sin (f z)) (Fin.ext (by show c.val - 6 = a.val; omega))

/-- The whole output array as one function of the whole input array: at `(b, ch, h, w)` the feature `ch` of the
    input's three channels at `(b, ·, h, w)`. -/
def G (x : FVec Ideal ⟨4, ![32, 3, 512, 512]⟩ .f32) : FVec Ideal ⟨4, ![32, 27, 512, 512]⟩ .f32 :=
  fun i => feature (fun c => x (ix4 (i 0) c (i 2) (i 3))) (i 1)

end Cert.Features

end
-- ==== Proof.KernelBody.lean ====
/-
  The kernel body's stored value, read at an index of the output block. The body loads the [1, 3, 128, 512] input
  block, drops its unit axis, joins it with its cosine and its sine into nine base channels, multiplies eighteen
  pairs of base channels (each factor a one-channel slice of the nine, seen as a [128, 512] plane), stacks the
  eighteen products, joins base channels and products into twenty-seven channels and stores them with the unit
  axis back. At block index `(0, ch, r, w)` that is feature `ch` of the block's three channels at row `r`,
  column `w`.
-/
import proofs.«116728_j58746562675072_1_alg».proof.Proof.Gen.KernelIdeal.Skeleton
import proofs.«116728_j58746562675072_1_alg».proof.Proof.Features
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Features

/-- The block's three input channels at row `r`, column `w`. -/
def chans (x0 : Vec Ideal S1x3x128x512 .f32) (r : Fin 128) (w : Fin 512) : Fin 3 → EReal :=
  fun a => x0 (ix4 (0 : Fin 1) a r w)

/-- The loaded block with its unit axis dropped reads `(a, r, w)` at `(0, a, r, w)`. -/
theorem squeeze_apply (x0 : Vec Ideal S1x3x128x512 .f32) (a : Fin 3) (r : Fin 128) (w : Fin 512) :
    shapeCast S3x128x512 x0 shapeCasts_S1x3x128x512_S3x128x512 (ix3 a r w) = x0 (ix4 (0 : Fin 1) a r w) :=
  (shapeCast_dropUnit_apply ![3, 128, 512] x0 shapeCasts_S1x3x128x512_S3x128x512 (ix3 a r w)).trans
    (congrArg x0 (funext fun e => match e with | ⟨0, _⟩ => rfl | ⟨1, _⟩ => rfl | ⟨2, _⟩ => rfl | ⟨3, _⟩ => rfl))

/-- The nine base channels of the block at `(c, r, w)`: base channel `c` of the three inputs there. The three
    pieces are the block, its cosine and its sine, three channels each. -/
theorem base_apply (x0 : Vec Ideal S1x3x128x512 .f32) (c : Fin 9) (r : Fin 128) (w : Fin 512) :
    k0_pay2 x0 (ix3 c r w) = base (chans x0 r w) c := by
  unfold k0_pay2
  have hc := c.isLt
  by_cases h3 : c.val < 3
  · refine (concatenate_apply_piece (0 : Fin S9x128x512.rank) _ _ (ix3 c r w) 0 (by simp) S3x128x512 _ rfl rfl 0 rfl
      (ix3 ⟨c.val, h3⟩ r w) ?_ ?_).trans ?_
    · intro b hb
      match b with
      | ⟨0, _⟩ => exact absurd rfl hb
      | ⟨1, _⟩ => rfl
      | ⟨2, _⟩ => rfl
    · show 0 + c.val = c.val
      omega
    · rw [squeeze_apply]
      exact (base_lo (chans x0 r w) c ⟨c.val, h3⟩ rfl).symm
  by_cases h6 : c.val < 6
  · refine (concatenate_apply_piece (0 : Fin S9x128x512.rank) _ _ (ix3 c r w) 1 (by simp) S3x128x512 _ rfl rfl 3 rfl
      (ix3 ⟨c.val - 3, by omega⟩ r w) ?_ ?_).trans ?_
    · intro b hb
      match b with
      | ⟨0, _⟩ => exact absurd rfl hb
      | ⟨1, _⟩ => rfl
      | ⟨2, _⟩ => rfl
    · show 3 + (c.val - 3) = c.val
      omega
    · show Ideal.cos (shapeCast S3x128x512 x0 shapeCasts_S1x3x128x512_S3x128x512 (ix3 ⟨c.val - 3, _⟩ r w)) = _
      rw [squeeze_apply]
      exact (base_cos (chans x0 r w) c ⟨c.val - 3, by omega⟩ (by show c.val = 3 + (c.val - 3); omega)).symm
  · refine (concatenate_apply_piece (0 : Fin S9x128x512.rank) _ _ (ix3 c r w) 2 (by simp) S3x128x512 _ rfl rfl 6 rfl
      (ix3 ⟨c.val - 6, by omega⟩ r w) ?_ ?_).trans ?_
    · intro b hb
      match b with
      | ⟨0, _⟩ => exact absurd rfl hb
      | ⟨1, _⟩ => rfl
      | ⟨2, _⟩ => rfl
    · show 6 + (c.val - 6) = c.val
      omega
    · show Ideal.sin (shapeCast S3x128x512 x0 shapeCasts_S1x3x128x512_S3x128x512 (ix3 ⟨c.val - 6, _⟩ r w)) = _
      rw [squeeze_apply]
      exact (base_sin (chans x0 r w) c ⟨c.val - 6, by omega⟩ (by show c.val = 6 + (c.val - 6); omega)).symm

/-- One channel `o` of nine, cut out as a [1, 128, 512] slice and seen as a [128, 512] plane, reads `(r, w)` at
    `(o, r, w)`. -/
theorem plane_apply (v : FVec Ideal S9x128x512 .f32) (o : Nat) (hs : S9x128x512.Slices ![o, 0, 0] S1x128x512)
    (r : Fin 128) (w : Fin 512) :
    shapeCast S128x512 (extractStridedSlice S1x128x512 ![o, 0, 0] v hs) shapeCasts_S1x128x512_S128x512 (ix2 r w)
      = v (ix3 ⟨o, hs.2 0⟩ r w) :=
  (shapeCast_dropUnit_apply ![128, 512] _ shapeCasts_S1x128x512_S128x512 (ix2 r w)).trans
    (extractStridedSlice_apply ![o, 0, 0] v hs _ (ix3 ⟨o, hs.2 0⟩ r w) (fun a => match a with
      | ⟨0, _⟩ => (Nat.add_zero o).symm
      | ⟨1, _⟩ => (Nat.zero_add r.val).symm
      | ⟨2, _⟩ => (Nat.zero_add w.val).symm))

/-- A [128, 512] plane stored as a [1, 128, 512] piece reads `(0, r, w)` at `(r, w)`. -/
theorem piece_apply (v : FVec Ideal S128x512 .f32) (z : Fin 1) (r : Fin 128) (w : Fin 512) :
    shapeCast S1x128x512 v shapeCasts_S128x512_S1x128x512 (ix3 z r w) = v (ix2 r w) :=
  (shapeCast_addUnit_apply ![128, 512] v shapeCasts_S128x512_S1x128x512 (ix3 z r w)).trans
    (congrArg v (funext fun a => match a with | ⟨0, _⟩ => rfl | ⟨1, _⟩ => rfl))

variable (x0 : Vec Ideal S1x3x128x512 .f32) (r : Fin 128) (w : Fin 512)

/-! The nine products computed before the body's positional cut, and the two factors of the tenth, each at `(r, w)`:
    a product of planes is the product of the base channels at `(r, w)`. -/

theorem pay3_apply : k0_pay3 x0 (ix2 r w) = base (chans x0 r w) 0 * base (chans x0 r w) 0 := by
  unfold k0_pay3; simp only [mulf_apply, plane_apply, base_apply]; rfl
theorem pay4_apply : k0_pay4 x0 (ix2 r w) = base (chans x0 r w) 0 * base (chans x0 r w) 3 := by
  unfold k0_pay4; simp only [mulf_apply, plane_apply, base_apply]; rfl
theorem pay5_apply : k0_pay5 x0 (ix2 r w) = base (chans x0 r w) 0 * base (chans x0 r w) 6 := by
  unfold k0_pay5; simp only [mulf_apply, plane_apply, base_apply]; rfl
theorem pay6_apply : k0_pay6 x0 (ix2 r w) = base (chans x0 r w) 1 * base (chans x0 r w) 1 := by
  unfold k0_pay6; simp only [mulf_apply, plane_apply, base_apply]; rfl
theorem pay7_apply : k0_pay7 x0 (ix2 r w) = base (chans x0 r w) 1 * base (chans x0 r w) 4 := by
  unfold k0_pay7; simp only [mulf_apply, plane_apply, base_apply]; rfl
theorem pay8_apply : k0_pay8 x0 (ix2 r w) = base (chans x0 r w) 1 * base (chans x0 r w) 7 := by
  unfold k0_pay8; simp only [mulf_apply, plane_apply, base_apply]; rfl
theorem pay9_apply : k0_pay9 x0 (ix2 r w) = base (chans x0 r w) 2 * base (chans x0 r w) 2 := by
  unfold k0_pay9; simp only [mulf_apply, plane_apply, base_apply]; rfl
theorem pay10_apply : k0_pay10 x0 (ix2 r w) = base (chans x0 r w) 2 * base (chans x0 r w) 5 := by
  unfold k0_pay10; simp only [mulf_apply, plane_apply, base_apply]; rfl
theorem pay11_apply : k0_pay11 x0 (ix2 r w) = base (chans x0 r w) 2 * base (chans x0 r w) 8 := by
  unfold k0_pay11; simp only [mulf_apply, plane_apply, base_apply]; rfl
theorem pay12_apply : k0_pay12 x0 (ix2 r w) = base (chans x0 r w) 3 := by
  unfold k0_pay12; simp only [plane_apply, base_apply]; rfl
theorem pay13_apply : k0_pay13 x0 (ix2 r w) = base (chans x0 r w) 3 := by
  unfold k0_pay13; simp only [plane_apply, base_apply]; rfl

/-- The product of two planes of the nine base channels at `(r, w)`. -/
theorem planes_mul_apply (o₁ o₂ : Nat) (hs₁ : S9x128x512.Slices ![o₁, 0, 0] S1x128x512) (hs₂ : S9x128x512.Slices ![o₂, 0, 0] S1x128x512) :
    mulf (shapeCast S128x512 (extractStridedSlice S1x128x512 ![o₁, 0, 0] (k0_pay2 x0) hs₁) shapeCasts_S1x128x512_S128x512)
        (shapeCast S128x512 (extractStridedSlice S1x128x512 ![o₂, 0, 0] (k0_pay2 x0) hs₂) shapeCasts_S1x128x512_S128x512) (ix2 r w)
      = base (chans x0 r w) ⟨o₁, hs₁.2 0⟩ * base (chans x0 r w) ⟨o₂, hs₂.2 0⟩ := by
  simp only [mulf_apply, plane_apply, base_apply]

/-- The tenth product, whose factors were computed before the cut. -/
theorem pay12_mul_pay13_apply : mulf (k0_pay12 x0) (k0_pay13 x0) (ix2 r w) = base (chans x0 r w) 3 * base (chans x0 r w) 3 := by
  simp only [mulf_apply, pay12_apply, pay13_apply]

/-- Base channel `o` of the block's nine as a [128, 512] plane. -/
abbrev plane (x0 : Vec Ideal S1x3x128x512 .f32) (o : Nat) (hs : S9x128x512.Slices ![o, 0, 0] S1x128x512) : FVec Ideal S128x512 .f32 :=
  shapeCast S128x512 (extractStridedSlice S1x128x512 ![o, 0, 0] (k0_pay2 x0) hs) shapeCasts_S1x128x512_S128x512

/-- The eighteen product planes in the order the body stacks them. -/
def planes (x0 : Vec Ideal S1x3x128x512 .f32) : Fin 18 → FVec Ideal S128x512 .f32 :=
  ![k0_pay3 x0, k0_pay4 x0, k0_pay5 x0, k0_pay6 x0, k0_pay7 x0, k0_pay8 x0, k0_pay9 x0, k0_pay10 x0, k0_pay11 x0,
    mulf (k0_pay12 x0) (k0_pay13 x0),
    mulf (plane x0 3 slices_S9x128x512_o3_0_0_S1x128x512) (plane x0 6 slices_S9x128x512_o6_0_0_S1x128x512),
    mulf (plane x0 4 slices_S9x128x512_o4_0_0_S1x128x512) (plane x0 4 slices_S9x128x512_o4_0_0_S1x128x512),
    mulf (plane x0 4 slices_S9x128x512_o4_0_0_S1x128x512) (plane x0 7 slices_S9x128x512_o7_0_0_S1x128x512),
    mulf (plane x0 5 slices_S9x128x512_o5_0_0_S1x128x512) (plane x0 5 slices_S9x128x512_o5_0_0_S1x128x512),
    mulf (plane x0 5 slices_S9x128x512_o5_0_0_S1x128x512) (plane x0 8 slices_S9x128x512_o8_0_0_S1x128x512),
    mulf (plane x0 6 slices_S9x128x512_o6_0_0_S1x128x512) (plane x0 6 slices_S9x128x512_o6_0_0_S1x128x512),
    mulf (plane x0 7 slices_S9x128x512_o7_0_0_S1x128x512) (plane x0 7 slices_S9x128x512_o7_0_0_S1x128x512),
    mulf (plane x0 8 slices_S9x128x512_o8_0_0_S1x128x512) (plane x0 8 slices_S9x128x512_o8_0_0_S1x128x512)]

/-- Product plane `k` at `(r, w)` is the product of base channels `fstCh k` and `sndCh k` there. -/
theorem planes_apply (k : Fin 18) :
    planes x0 k (ix2 r w) = base (chans x0 r w) (fstCh k) * base (chans x0 r w) (sndCh k) := by
  fin_cases k
  · exact pay3_apply x0 r w
  · exact pay4_apply x0 r w
  · exact pay5_apply x0 r w
  · exact pay6_apply x0 r w
  · exact pay7_apply x0 r w
  · exact pay8_apply x0 r w
  · exact pay9_apply x0 r w
  · exact pay10_apply x0 r w
  · exact pay11_apply x0 r w
  · exact pay12_mul_pay13_apply x0 r w
  · exact planes_mul_apply x0 r w 3 6 _ _
  · exact planes_mul_apply x0 r w 4 4 _ _
  · exact planes_mul_apply x0 r w 4 7 _ _
  · exact planes_mul_apply x0 r w 5 5 _ _
  · exact planes_mul_apply x0 r w 5 8 _ _
  · exact planes_mul_apply x0 r w 6 6 _ _
  · exact planes_mul_apply x0 r w 7 7 _ _
  · exact planes_mul_apply x0 r w 8 8 _ _

/-- The eighteen products stacked along the channel axis, as the body computes them. -/
def products (x0 : Vec Ideal S1x3x128x512 .f32) : FVec Ideal S18x128x512 .f32 :=
  k0_pay14 (k0_pay2 x0) (k0_pay3 x0) (k0_pay4 x0) (k0_pay5 x0) (k0_pay6 x0) (k0_pay7 x0) (k0_pay8 x0) (k0_pay9 x0)
    (k0_pay10 x0) (k0_pay11 x0) (k0_pay12 x0) (k0_pay13 x0)

/-- The stack is the concatenation, along the channel axis, of the eighteen planes each as a one-channel piece. -/
theorem products_eq : products x0 = concatenate S18x128x512 0
    (List.ofFn fun n : Fin 18 => (⟨S1x128x512, shapeCast S1x128x512 (planes x0 n) shapeCasts_S128x512_S1x128x512⟩ : (s : Shape) × (s.Idx → EReal)))
    concatenates_S1x128x512_S1x128x512_S1x128x512_S1x128x512_S1x128x512_S1x128x512_S1x128x512_S1x128x512_S1x128x512_S1x128x512_S1x128x512_S1x128x512_S1x128x512_S1x128x512_S1x128x512_S1x128x512_S1x128x512_S1x128x512_S18x128x512_d0 := rfl

/-- The eighteen stacked products at `(k, r, w)`: piece `k` of eighteen one-channel pieces, the product of base channels
    `fstCh k` and `sndCh k` at `(r, w)`. -/
theorem prods_apply (k : Fin 18) :
    products x0 (ix3 k r w) = base (chans x0 r w) (fstCh k) * base (chans x0 r w) (sndCh k) := by
  rw [products_eq]
  refine (concatenate_ofFn_unit_apply (s₁ := S1x128x512) (0 : Fin S18x128x512.rank)
    (fun n : Fin 18 => shapeCast S1x128x512 (planes x0 n) shapeCasts_S128x512_S1x128x512) _ rfl rfl (ix3 k r w) k rfl
    (ix3 (0 : Fin 1) r w) ?_).trans ?_
  · intro b hb
    match b with
    | ⟨0, _⟩ => exact absurd rfl hb
    | ⟨1, _⟩ => rfl
    | ⟨2, _⟩ => rfl
  · rw [piece_apply]
    exact planes_apply x0 r w k

/-- THE STORED VALUE at block index `(z, ch, r, w)`: feature `ch` of the block's three channels at `(r, w)`. The
    twenty-seven channels are the nine base channels followed by the eighteen products. -/
theorem payload_apply (z : Fin 1) (ch : Fin 27) :
    k0_pay1 (k0_pay2 x0) (k0_pay14 (k0_pay2 x0) (k0_pay3 x0) (k0_pay4 x0) (k0_pay5 x0) (k0_pay6 x0) (k0_pay7 x0) (k0_pay8 x0)
        (k0_pay9 x0) (k0_pay10 x0) (k0_pay11 x0) (k0_pay12 x0) (k0_pay13 x0)) (ix4 z ch r w)
      = feature (chans x0 r w) ch := by
  unfold k0_pay1
  have hch := ch.isLt
  refine (shapeCast_addUnit_apply ![27, 128, 512] _ shapeCasts_S27x128x512_S1x27x128x512 (ix4 z ch r w)).trans ?_
  refine (congrArg _ (show (fun a : Fin 3 => (ix4 z ch r w) a.succ) = ix3 ch r w from
    funext fun a => match a with | ⟨0, _⟩ => rfl | ⟨1, _⟩ => rfl | ⟨2, _⟩ => rfl)).trans ?_
  by_cases h9 : ch.val < 9
  · refine (concatenate_apply_piece (0 : Fin S27x128x512.rank) _ _ (ix3 ch r w) 0 (by simp) S9x128x512 _ rfl rfl 0 rfl
      (ix3 ⟨ch.val, h9⟩ r w) ?_ ?_).trans ?_
    · intro b hb
      match b with
      | ⟨0, _⟩ => exact absurd rfl hb
      | ⟨1, _⟩ => rfl
      | ⟨2, _⟩ => rfl
    · show 0 + ch.val = ch.val
      omega
    · rw [base_apply]
      exact (feature_lt (chans x0 r w) ch h9).symm
  · refine (concatenate_apply_piece (0 : Fin S27x128x512.rank) _ _ (ix3 ch r w) 1 (by simp) S18x128x512 _ rfl rfl 9 rfl
      (ix3 ⟨ch.val - 9, by omega⟩ r w) ?_ ?_).trans ?_
    · intro b hb
      match b with
      | ⟨0, _⟩ => exact absurd rfl hb
      | ⟨1, _⟩ => rfl
      | ⟨2, _⟩ => rfl
    · show 9 + (ch.val - 9) = ch.val
      omega
    · rw [show k0_pay14 (k0_pay2 x0) (k0_pay3 x0) (k0_pay4 x0) (k0_pay5 x0) (k0_pay6 x0) (k0_pay7 x0) (k0_pay8 x0) (k0_pay9 x0)
        (k0_pay10 x0) (k0_pay11 x0) (k0_pay12 x0) (k0_pay13 x0) = products x0 from rfl, prods_apply]
      exact (feature_ge (chans x0 r w) ch ⟨ch.val - 9, by omega⟩ (by show ch.val = 9 + (ch.val - 9); omega)).symm

end Cert.KernelIdeal.Body

end
-- ==== Proof.KernelValue.lean ====
/-
  The kernel's result array. Grid point `t = (b, q)` stages block `(b, 0, q, 0)` of the input — batch `b`, all three
  channels, rows `128 q` to `128 q + 127`, all columns — and writes back block `(b, 0, q, 0)` of the output, the same
  batch, rows and columns with all twenty-seven channels. What it writes is the feature function of what it staged,
  position by position, so it writes block `t` of the feature function of the whole input; the 128 blocks tile the
  output, so the output ends as that function.
-/
import proofs.«116728_j58746562675072_1_alg».proof.Proof.Gen.KernelIdeal.Value
import proofs.«116728_j58746562675072_1_alg».proof.Proof.KernelBody

set_option maxRecDepth 16384

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx Cert.Features
open Idealize.ShloMosaic.Pipeline (Dat)

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-- The stored value at a block index is the feature function of a whole array `X` at an array index `i`, when the
    two indices name the same channel and the block's three channels at the block's row and column are `X`'s at
    `i`'s batch, row and column. -/
theorem stored_eq (x0 : Vec Ideal S1x3x128x512 .f32) (X : FVec Ideal S32x3x512x512 .f32)
    (y : S1x27x128x512.Idx) (i : S32x27x512x512.Idx) (hch : (y 1).val = (i 1).val)
    (hx : ∀ a : Fin 3, x0 (ix4 (0 : Fin 1) a (y 2) (y 3)) = X (ix4 (i 0) a (i 2) (i 3))) :
    k0_pay1 (k0_pay2 x0) (k0_pay14 (k0_pay2 x0) (k0_pay3 x0) (k0_pay4 x0) (k0_pay5 x0) (k0_pay6 x0) (k0_pay7 x0) (k0_pay8 x0)
        (k0_pay9 x0) (k0_pay10 x0) (k0_pay11 x0) (k0_pay12 x0) (k0_pay13 x0)) y = G X i := by
  refine (congrArg _ (eq_ix4 y)).trans ((payload_apply x0 (y 2) (y 3) (y 0) (y 1)).trans ?_)
  unfold G
  have e1 : chans x0 (y 2) (y 3) = fun a => X (ix4 (i 0) a (i 2) (i 3)) := funext hx
  have e2 : (y 1 : Fin 27) = (i 1 : Fin 27) := Fin.ext hch
  rw [e1, e2]

/-- The printed index maps, decided over the grid: the input block moves with the output block on the batch and row
    axes, and both stay at block zero on the channel and column axes. -/
theorem index_facts : ∀ t : Fin cfg0.N, win0_0.index t (0 : Fin 4) = win0_1.index t (0 : Fin 4)
    ∧ win0_0.index t (2 : Fin 4) = win0_1.index t (2 : Fin 4)
    ∧ win0_0.index t (1 : Fin 4) = 0 ∧ win0_0.index t (3 : Fin 4) = 0
    ∧ win0_1.index t (1 : Fin 4) = 0 ∧ win0_1.index t (3 : Fin 4) = 0 :=
  (by decide +kernel : ∀ t : Fin grid0.N, _)

/-- Every batch and every band of 128 rows is some point's block. -/
theorem index_onto : ∀ (q0 : Fin 32) (q2 : Fin 4), ∃ t : Fin cfg0.N, win0_1.index t = ![q0.val, 0, q2.val, 0] :=
  (by decide +kernel : ∀ (q0 : Fin 32) (q2 : Fin 4), ∃ t : Fin grid0.N, win0_1.index t = ![q0.val, 0, q2.val, 0])

/-- The staged input block read at a block index is the input array at that index moved into the block. -/
theorem staged_apply (c : Dev nD) (t : Fin cfg0.N) (y : S1x3x128x512.Idx) :
    iblk m c 0 t y = V m c main_arg0 (((cfg0.win 0).blk t).view.emb y) := rfl

/-- WHAT POINT `t` WRITES BACK is block `t` of the feature function of the input array. -/
theorem flushed_eq (c : Dev nD) (t : Fin cfg0.N) :
    (dats m 0 c).flushed 1 t = ((cfg0.win 1).blk t).view.read (Elt Ideal) (G (V m c main_arg0)) := by
  rw [Value.flushed1]
  unfold out0_1
  rw [View.canon_unit_zero offsets_zero]
  simp only [View.ld_unit_zero (S := S1x3x128x512) offsets_zero]
  obtain ⟨e0, e2, e1, e3, f1, f3⟩ := index_facts t
  funext y
  refine stored_eq (iblk m c 0 t) (V m c main_arg0) y (((cfg0.win 1).blk t).view.emb y) ?_ ?_
  · show (y 1).val = win0_1.index t (1 : Fin 4) * 27 + 1 * (y 1).val
    omega
  · intro a
    rw [staged_apply]
    refine congrArg (V m c main_arg0) (funext fun e => Fin.ext ?_)
    match e with
    | ⟨0, _⟩ =>
      show win0_0.index t (0 : Fin 4) * 1 + 1 * 0 = win0_1.index t (0 : Fin 4) * 1 + 1 * (y 0).val
      have hy : (y 0).val < 1 := (y 0).isLt
      omega
    | ⟨1, _⟩ =>
      show win0_0.index t (1 : Fin 4) * 3 + 1 * a.val = a.val
      omega
    | ⟨2, _⟩ =>
      show win0_0.index t (2 : Fin 4) * 128 + 1 * (y 2).val = win0_1.index t (2 : Fin 4) * 128 + 1 * (y 2).val
      omega
    | ⟨3, _⟩ =>
      show win0_0.index t (3 : Fin 4) * 512 + 1 * (y 3).val = win0_1.index t (3 : Fin 4) * 512 + 1 * (y 3).val
      omega

/-- An index of the output array is in point `t`'s block iff each coordinate is in the block's range on its axis. -/
theorem mem_block (t : Fin cfg0.N) (i : S32x27x512x512.Idx) :
    i ∈ ((cfg0.win 1).blk t).view.set ↔ ∀ a : Fin 4, win0_1.index t a * S1x27x128x512.size a ≤ (i a).val
      ∧ (i a).val < win0_1.index t a * S1x27x128x512.size a + S1x27x128x512.size a := by
  show i ∈ ((View.whole main_v0).slice (win0_1.rect t)).set ↔ _
  rw [View.set_slice_whole, Rect.mem_set_unit]
  exact Iff.rfl

/-- The blocks tile the output: index `(b, ch, h, w)` is in the block of the point with batch `b` and band `h / 128`. -/
theorem covered (i : S32x27x512x512.Idx) :
    ∃ t : Fin cfg0.N, (cfg0.win 1).flush t = true ∧ i ∈ ((cfg0.win 1).blk t).view.set := by
  have hi0 : (i 0).val < 32 := (i 0).isLt
  have hi1 : (i 1).val < 27 := (i 1).isLt
  have hi2 : (i 2).val < 512 := (i 2).isLt
  have hi3 : (i 3).val < 512 := (i 3).isLt
  obtain ⟨t, ht⟩ := index_onto ⟨(i 0).val, hi0⟩ ⟨(i 2).val / 128, by omega⟩
  have q0 : win0_1.index t (0 : Fin 4) = (i 0).val := congrFun ht 0
  have q1 : win0_1.index t (1 : Fin 4) = 0 := congrFun ht 1
  have q2 : win0_1.index t (2 : Fin 4) = (i 2).val / 128 := congrFun ht 2
  have q3 : win0_1.index t (3 : Fin 4) = 0 := congrFun ht 3
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 27 ≤ (i 1).val ∧ (i 1).val < win0_1.index t (1 : Fin 4) * 27 + 27; omega
  | ⟨2, _⟩ => show win0_1.index t (2 : Fin 4) * 128 ≤ (i 2).val ∧ (i 2).val < win0_1.index t (2 : Fin 4) * 128 + 128; omega
  | ⟨3, _⟩ => show win0_1.index t (3 : Fin 4) * 512 ≤ (i 3).val ∧ (i 3).val < win0_1.index t (3 : Fin 4) * 512 + 512; omega

/-- THE OUTPUT ARRAY after the run is the feature function of the input array as launched. -/
theorem final (c : Dev nD) : (dats m 0 c).arrAt 1 cfg0.N = G (m ((c : Thread nD τ).loc main_arg0)) :=
  (dats m 0 c).arrAt_eq_of_cover 1 (G (V m c main_arg0)) (fun t _ => flushed_eq m c t) covered

/-- The kernel's run: every weakly fair execution terminates with the result at the feature function of the argument,
    the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Blocks

end
-- ==== Proof.RefRun.lean ====
/-
  The reference program's run, read back. @main is a straight line of twenty-one host operations; every weakly fair
  execution ends with the result buffer at the operations' composed term of the argument array, the argument unchanged.
  That term: the nine base channels `[x, cos x, sin x]` joined along the channel axis, two gathers of base channels
  along that axis at the two constant index columns, their product, and base channels and products joined.
-/
import proofs.«116728_j58746562675072_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The index column the program builds from a constant table of eighteen words: the table with `9` added where a
    mask says the word is negative — the mask is all false — as an [18, 1] column. -/
def idxCol (lit : Fin 18 → BitVec 32) : IVec S18x1 32 :=
  broadcastInDim S18x1 ![0] bcast_S18_S18x1_0
    (select (constantI S18 1 0#1)
      (addi (fun i => lit (S18.rowMajor i)) (broadcastInDim S18 ![] bcast_S_S18 (constantI S_ 32 9#32)))
      (fun i => lit (S18.rowMajor i)))

/-- The nine base channels: the input, its cosine, its sine, joined along the channel axis. -/
def base9 (x : FVec F S32x3x512x512 .f32) : FVec F S32x9x512x512 .f32 :=
  concatenate S32x9x512x512 1 [⟨S32x3x512x512, x⟩, ⟨S32x3x512x512, Host.cos x⟩, ⟨S32x3x512x512, Host.sin x⟩]
    concatenates_S32x3x512x512_S32x3x512x512_S32x3x512x512_S32x9x512x512_d1

/-- The eighteen products: base channels gathered at the first column times base channels gathered at the second. -/
def prods (x : FVec F S32x3x512x512 .f32) : FVec F S32x18x512x512 .f32 :=
  mulf (Host.gather gather_S32x9x512x512_S18x1_S32x18x512x512_023_1_n_n_1_1_321512512 (base9 x) (idxCol lit0))
    (Host.gather gather_S32x9x512x512_S18x1_S32x18x512x512_023_1_n_n_1_1_321512512 (base9 x) (idxCol lit1))

/-- The program's result as one term of its argument. -/
def refTerm (x : FVec F S32x3x512x512 .f32) : FVec F S32x27x512x512 .f32 :=
  concatenate S32x27x512x512 1 [⟨S32x9x512x512, base9 x⟩, ⟨S32x18x512x512, prods x⟩]
    concatenates_S32x9x512x512_S32x18x512x512_S32x27x512x512_d1

/-- @main's 21 operations, in order. -/
abbrev ops : List (HloOp τ sig (Elt F)) :=
  [ nullary main_c (fun i => lit0 (S18.rowMajor i)),
    nullary main_c_0 (constantI S18 1 0#1),
    nullary main_c_1 (fun i => lit1 (S18.rowMajor i)),
    nullary main_c_2 (constantI S18 1 0#1),
    unary main_arg0 main_v0 (Host.cos : (⟨S32x3x512x512, .f32⟩ : BufTy).Contents (Elt F) → (⟨S32x3x512x512, .f32⟩ : BufTy).Contents (Elt F)),
    unary main_arg0 main_v1 (Host.sin : (⟨S32x3x512x512, .f32⟩ : BufTy).Contents (Elt F) → (⟨S32x3x512x512, .f32⟩ : BufTy).Contents (Elt F)),
    nary ![main_arg0, main_v0, main_v1] main_v2 (fun u => concatenate S32x9x512x512 1 [⟨S32x3x512x512, u 0⟩, ⟨S32x3x512x512, u 1⟩, ⟨S32x3x512x512, u 2⟩] concatenates_S32x3x512x512_S32x3x512x512_S32x3x512x512_S32x9x512x512_d1),
    nullary main_c_3 (constantI S_ 32 9#32),
    unary main_c_3 main_v3 (broadcastInDim S18 ![] bcast_S_S18 : (⟨S_, .i32⟩ : BufTy).Contents (Elt F) → (⟨S18, .i32⟩ : BufTy).Contents (Elt F)),
    binary main_c main_v3 main_v4 (addi : (⟨S18, .i32⟩ : BufTy).Contents (Elt F) → (⟨S18, .i32⟩ : BufTy).Contents (Elt F) → (⟨S18, .i32⟩ : BufTy).Contents (Elt F)),
    ternary main_c_0 main_v4 main_c main_v5 (select : (⟨S18, .i1⟩ : BufTy).Contents (Elt F) → (⟨S18, .i32⟩ : BufTy).Contents (Elt F) → (⟨S18, .i32⟩ : BufTy).Contents (Elt F) → (⟨S18, .i32⟩ : BufTy).Contents (Elt F)),
    unary main_v5 main_v6 (broadcastInDim S18x1 ![0] bcast_S18_S18x1_0 : (⟨S18, .i32⟩ : BufTy).Contents (Elt F) → (⟨S18x1, .i32⟩ : BufTy).Contents (Elt F)),
    binary main_v2 main_v6 main_v7 ((fun x i => Host.gather gather_S32x9x512x512_S18x1_S32x18x512x512_023_1_n_n_1_1_321512512 x i) : (⟨S32x9x512x512, .f32⟩ : BufTy).Contents (Elt F) → (⟨S18x1, .i32⟩ : BufTy).Contents (Elt F) → (⟨S32x18x512x512, .f32⟩ : BufTy).Contents (Elt F)),
    nullary main_c_4 (constantI S_ 32 9#32),
    unary main_c_4 main_v8 (broadcastInDim S18 ![] bcast_S_S18 : (⟨S_, .i32⟩ : BufTy).Contents (Elt F) → (⟨S18, .i32⟩ : BufTy).Contents (Elt F)),
    binary main_c_1 main_v8 main_v9 (addi : (⟨S18, .i32⟩ : BufTy).Contents (Elt F) → (⟨S18, .i32⟩ : BufTy).Contents (Elt F) → (⟨S18, .i32⟩ : BufTy).Contents (Elt F)),
    ternary main_c_2 main_v9 main_c_1 main_v10 (select : (⟨S18, .i1⟩ : BufTy).Contents (Elt F) → (⟨S18, .i32⟩ : BufTy).Contents (Elt F) → (⟨S18, .i32⟩ : BufTy).Contents (Elt F) → (⟨S18, .i32⟩ : BufTy).Contents (Elt F)),
    unary main_v10 main_v11 (broadcastInDim S18x1 ![0] bcast_S18_S18x1_0 : (⟨S18, .i32⟩ : BufTy).Contents (Elt F) → (⟨S18x1, .i32⟩ : BufTy).Contents (Elt F)),
    binary main_v2 main_v11 main_v12 ((fun x i => Host.gather gather_S32x9x512x512_S18x1_S32x18x512x512_023_1_n_n_1_1_321512512 x i) : (⟨S32x9x512x512, .f32⟩ : BufTy).Contents (Elt F) → (⟨S18x1, .i32⟩ : BufTy).Contents (Elt F) → (⟨S32x18x512x512, .f32⟩ : BufTy).Contents (Elt F)),
    binary main_v7 main_v12 main_v13 (mulf : (⟨S32x18x512x512, .f32⟩ : BufTy).Contents (Elt F) → (⟨S32x18x512x512, .f32⟩ : BufTy).Contents (Elt F) → (⟨S32x18x512x512, .f32⟩ : BufTy).Contents (Elt F)),
    binary main_v2 main_v13 main_v14 ((fun a b => concatenate S32x27x512x512 1 [⟨S32x9x512x512, a⟩, ⟨S32x18x512x512, b⟩] concatenates_S32x9x512x512_S32x18x512x512_S32x27x512x512_d1) : (⟨S32x9x512x512, .f32⟩ : BufTy).Contents (Elt F) → (⟨S32x18x512x512, .f32⟩ : BufTy).Contents (Elt F) → (⟨S32x27x512x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., unary_bufs_sub ..,
    nary_bufs_sub .., nullary_bufs_sub .., unary_bufs_sub .., binary_bufs_sub .., ternary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub ..⟩

/-- On the device, for any float values, from any memory with zero counters: every weakly fair execution of @main
    terminates with the result at `refTerm` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v14).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.RefValue.lean ====
/-
  The reference's result term is the feature function. Read at `(b, ch, h, w)`: for `ch < 9` the joined array reads its
  first piece, the nine base channels (the input, its cosine, its sine along the channel axis); for `ch = 9 + k` its
  second piece, the product of two gathers, each of which reads the base channels at the channel its index column
  names for `k` — the constant tables of first and second factors — and at `(b, h, w)`.
-/
import proofs.«116728_j58746562675072_1_alg».proof.Proof.RefRun
import proofs.«116728_j58746562675072_1_alg».proof.Proof.Features
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.ValueIdx Cert.Features

/-- The input's three channels at batch `b`, row `h`, column `w`. -/
def chansAt (x : FVec Ideal S32x3x512x512 .f32) (b : Fin 32) (h w : Fin 512) : Fin 3 → EReal :=
  fun a => x (ix4 b a h w)

/-- The nine base channels at `(b, c, h, w)`: base channel `c` of the three inputs there. -/
theorem base9_apply (x : FVec Ideal S32x3x512x512 .f32) (b : Fin 32) (c : Fin 9) (h w : Fin 512) :
    base9 x (ix4 b c h w) = base (chansAt x b h w) c := by
  unfold base9
  have hc := c.isLt
  by_cases h3 : c.val < 3
  · refine (concatenate_apply_piece (1 : Fin S32x9x512x512.rank) _ _ (ix4 b c h w) 0 (by simp) S32x3x512x512 _ rfl rfl 0 rfl
      (ix4 b ⟨c.val, h3⟩ h w) ?_ ?_).trans ?_
    · intro e he
      match e with
      | ⟨0, _⟩ => rfl
      | ⟨1, _⟩ => exact absurd rfl he
      | ⟨2, _⟩ => rfl
      | ⟨3, _⟩ => rfl
    · show 0 + c.val = c.val
      omega
    · exact (base_lo (chansAt x b h w) c ⟨c.val, h3⟩ rfl).symm
  by_cases h6 : c.val < 6
  · refine (concatenate_apply_piece (1 : Fin S32x9x512x512.rank) _ _ (ix4 b c h w) 1 (by simp) S32x3x512x512 _ rfl rfl 3 rfl
      (ix4 b ⟨c.val - 3, by omega⟩ h w) ?_ ?_).trans ?_
    · intro e he
      match e with
      | ⟨0, _⟩ => rfl
      | ⟨1, _⟩ => exact absurd rfl he
      | ⟨2, _⟩ => rfl
      | ⟨3, _⟩ => rfl
    · show 3 + (c.val - 3) = c.val
      omega
    · exact (base_cos (chansAt x b h w) c ⟨c.val - 3, by omega⟩ (by show c.val = 3 + (c.val - 3); omega)).symm
  · refine (concatenate_apply_piece (1 : Fin S32x9x512x512.rank) _ _ (ix4 b c h w) 2 (by simp) S32x3x512x512 _ rfl rfl 6 rfl
      (ix4 b ⟨c.val - 6, by omega⟩ h w) ?_ ?_).trans ?_
    · intro e he
      match e with
      | ⟨0, _⟩ => rfl
      | ⟨1, _⟩ => exact absurd rfl he
      | ⟨2, _⟩ => rfl
      | ⟨3, _⟩ => rfl
    · show 6 + (c.val - 6) = c.val
      omega
    · exact (base_sin (chansAt x b h w) c ⟨c.val - 6, by omega⟩ (by show c.val = 6 + (c.val - 6); omega)).symm

/-- The index column built from a table reads the table: the mask that would add `9` is all false. -/
theorem idxCol_apply (lit : Fin 18 → BitVec 32) (k : Fin 18) : idxCol lit (ix2 k (0 : Fin 1)) = lit k := by
  unfold idxCol
  refine (broadcastInDim_apply ![0] bcast_S18_S18x1_0 _ (ix2 k (0 : Fin 1)) (ix1 k)
    (fun a => match a with | ⟨0, _⟩ => rfl)).trans ?_
  rw [select_apply]
  show Scalar.select 0#1 _ _ = _
  rw [select_zero]
  exact congrArg lit (Fin.ext (Shape.rowMajor_val_one (ix1 k)))

/-- A gather along the channel axis at `(b, k, h, w)`: the operand at `(b, ·, h, w)` on the channel the index column
    names for `k`, read as a signed integer and clamped into the nine channels. -/
theorem gather_apply (v : FVec Ideal S32x9x512x512 .f32) (idx : IVec S18x1 32) (b : Fin 32) (k : Fin 18) (h w : Fin 512) :
    Host.gather gather_S32x9x512x512_S18x1_S32x18x512x512_023_1_n_n_1_1_321512512 v idx (ix4 b k h w)
      = v (ix4 b ⟨min (idx (ix2 k (0 : Fin 1))).toInt.toNat 8, by omega⟩ h w) := by
  unfold Host.gather
  congr 1
  funext a
  refine Fin.ext ?_
  have hbz : ∀ e, (gather_S32x9x512x512_S18x1_S32x18x512x512_023_1_n_n_1_1_321512512).batchCoord (ix4 b k h w) e = 0 :=
    fun e => GatherDims.batchCoord_eq_zero _ _ e List.not_mem_nil
  have hst : ∀ e : Fin 4, e ≠ 1 → (gather_S32x9x512x512_S18x1_S32x18x512x512_023_1_n_n_1_1_321512512).start (ix4 b k h w) idx e = 0 := by
    intro e he
    unfold GatherDims.start
    exact dif_neg (fun hm => he (List.mem_singleton.mp hm))
  match a with
  | ⟨0, _⟩ =>
    show GatherDims.start _ (ix4 b k h w) idx 0 + GatherDims.batchCoord _ (ix4 b k h w) 0 + GatherDims.offCoord _ (ix4 b k h w) 0 = b.val
    rw [hbz, hst 0 (by decide)]
    have : GatherDims.offCoord (gather_S32x9x512x512_S18x1_S32x18x512x512_023_1_n_n_1_1_321512512) (ix4 b k h w) 0 = b.val := rfl
    omega
  | ⟨1, _⟩ =>
    show GatherDims.start _ (ix4 b k h w) idx 1 + GatherDims.batchCoord _ (ix4 b k h w) 1 + GatherDims.offCoord _ (ix4 b k h w) 1
      = min (idx (ix2 k (0 : Fin 1))).toInt.toNat 8
    rw [hbz, GatherDims.offCoord_eq_zero _ _ _ (fun hm => ((GatherDims.mem_sKept _ _).mp hm).1 (List.mem_singleton.mpr rfl))]
    unfold GatherDims.start
    rw [dif_pos (show (1 : Fin 4) ∈ (gather_S32x9x512x512_S18x1_S32x18x512x512_023_1_n_n_1_1_321512512).startIndexMap from
      List.mem_singleton.mpr rfl)]
    have hsi : (gather_S32x9x512x512_S18x1_S32x18x512x512_023_1_n_n_1_1_321512512).siIdx (ix4 b k h w)
        ⟨List.idxOf (1 : Fin 4) (gather_S32x9x512x512_S18x1_S32x18x512x512_023_1_n_n_1_1_321512512).startIndexMap,
          List.idxOf_lt_length_iff.2 (List.mem_singleton.mpr rfl)⟩ = ix2 k (0 : Fin 1) := by
      funext e; refine Fin.ext ?_
      match e with
      | ⟨0, _⟩ => rfl
      | ⟨1, _⟩ => rfl
    rw [hsi]
    rfl
  | ⟨2, _⟩ =>
    show GatherDims.start _ (ix4 b k h w) idx 2 + GatherDims.batchCoord _ (ix4 b k h w) 2 + GatherDims.offCoord _ (ix4 b k h w) 2 = h.val
    rw [hbz, hst 2 (by decide)]
    have : GatherDims.offCoord (gather_S32x9x512x512_S18x1_S32x18x512x512_023_1_n_n_1_1_321512512) (ix4 b k h w) 2 = h.val := rfl
    omega
  | ⟨3, _⟩ =>
    show GatherDims.start _ (ix4 b k h w) idx 3 + GatherDims.batchCoord _ (ix4 b k h w) 3 + GatherDims.offCoord _ (ix4 b k h w) 3 = w.val
    rw [hbz, hst 3 (by decide)]
    have : GatherDims.offCoord (gather_S32x9x512x512_S18x1_S32x18x512x512_023_1_n_n_1_1_321512512) (ix4 b k h w) 3 = w.val := rfl
    omega

/-- The first index column names, clamped, the first factor's base channel. -/
theorem fst_clamped (k : Fin 18) : min (lit0 k).toInt.toNat 8 = (fstCh k).val := by
  fin_cases k <;> rfl

/-- The second index column names, clamped, the second factor's base channel. -/
theorem snd_clamped (k : Fin 18) : min (lit1 k).toInt.toNat 8 = (sndCh k).val := by
  fin_cases k <;> rfl

/-- The eighteen products at `(b, k, h, w)`. -/
theorem prods_apply (x : FVec Ideal S32x3x512x512 .f32) (b : Fin 32) (k : Fin 18) (h w : Fin 512) :
    prods x (ix4 b k h w) = base (chansAt x b h w) (fstCh k) * base (chansAt x b h w) (sndCh k) := by
  unfold prods
  rw [mulf_apply, gather_apply, gather_apply, base9_apply, base9_apply]
  have e0 : (⟨min (idxCol lit0 (ix2 k (0 : Fin 1))).toInt.toNat 8, by omega⟩ : Fin 9) = fstCh k :=
    Fin.ext (by show min (idxCol lit0 (ix2 k (0 : Fin 1))).toInt.toNat 8 = _; rw [idxCol_apply]; exact fst_clamped k)
  have e1 : (⟨min (idxCol lit1 (ix2 k (0 : Fin 1))).toInt.toNat 8, by omega⟩ : Fin 9) = sndCh k :=
    Fin.ext (by show min (idxCol lit1 (ix2 k (0 : Fin 1))).toInt.toNat 8 = _; rw [idxCol_apply]; exact snd_clamped k)
  rw [e0, e1]

/-- THE REFERENCE'S RESULT is the feature function of its argument. -/
theorem refTerm_eq (x : FVec Ideal S32x3x512x512 .f32) : refTerm x = G x := by
  funext i
  obtain ⟨b, ch, h, w, rfl⟩ : ∃ (b : Fin 32) (ch : Fin 27) (h w : Fin 512), i = ix4 b ch h w :=
    ⟨i 0, i 1, i 2, i 3, eq_ix4 i⟩
  show refTerm x (ix4 b ch h w) = feature (chansAt x b h w) ch
  unfold refTerm
  have hch := ch.isLt
  by_cases h9 : ch.val < 9
  · refine (concatenate_apply_piece (1 : Fin S32x27x512x512.rank) _ _ (ix4 b ch h w) 0 (by simp) S32x9x512x512 _ rfl rfl 0 rfl
      (ix4 b ⟨ch.val, h9⟩ h w) ?_ ?_).trans ?_
    · intro e he
      match e with
      | ⟨0, _⟩ => rfl
      | ⟨1, _⟩ => exact absurd rfl he
      | ⟨2, _⟩ => rfl
      | ⟨3, _⟩ => rfl
    · show 0 + ch.val = ch.val
      omega
    · rw [base9_apply]
      exact (feature_lt (chansAt x b h w) ch h9).symm
  · refine (concatenate_apply_piece (1 : Fin S32x27x512x512.rank) _ _ (ix4 b ch h w) 1 (by simp) S32x18x512x512 _ rfl rfl 9 rfl
      (ix4 b ⟨ch.val - 9, by omega⟩ h w) ?_ ?_).trans ?_
    · intro e he
      match e with
      | ⟨0, _⟩ => rfl
      | ⟨1, _⟩ => exact absurd rfl he
      | ⟨2, _⟩ => rfl
      | ⟨3, _⟩ => rfl
    · show 9 + (ch.val - 9) = ch.val
      omega
    · rw [prods_apply]
      exact (feature_ge (chansAt x b h w) ch ⟨ch.val - 9, by omega⟩ (by show ch.val = 9 + (ch.val - 9); omega)).symm

end Cert.ReferenceIdeal.RefValue

end
-- ==== Proof.lean ====
/-
  The kernel maps an input `x : f32[32, 3, 512, 512]` to twenty-seven channels per batch, row and column: the three
  input channels, their cosines, their sines (nine base channels), and eighteen products of pairs of base channels —
  the pairs `(i, j)` with `i ≤ j` and `j ≡ i (mod 3)` in lexicographic order. The reference computes the same array on
  the host, taking each product's factors by two gathers along the channel axis at constant index tables.

  At the ideal instance cosine and sine are one function on the extended reals whether a kernel or the host applies
  them, and a product is the extended reals' product, so both programs compute `Features.G`, index by index, with no
  algebraic law between them: the proof is bookkeeping of which element each layout operation reads.

  * Kernel side (`KernelBody`, `KernelValue`): the body's stored value at a block index is the feature of the block's
    three channels at that row and column; grid point `(b, q)` writes block `(b, 0, q, 0)` of `G x`; the 128 blocks tile
    the output.
  * Reference side (`RefRun`, `RefValue`): @main's twenty-one host operations run to one composed term of the argument;
    read at an index, its gathers pick the base channels the two constant tables name.
  * The three frames: the kernel's two are its generated frame certificates; the reference's is its run with the
    result forgotten. The ideal pass rewrote nothing, so there is nothing to preserve.
-/
import proofs.«116728_j58746562675072_1_alg».proof.Defs
import proofs.«116728_j58746562675072_1_alg».proof.Proof.Gen.Kernel
import proofs.«116728_j58746562675072_1_alg».proof.Proof.Gen.Kernel.Skeleton
import proofs.«116728_j58746562675072_1_alg».proof.Proof.Gen.Kernel.Launch
import proofs.«116728_j58746562675072_1_alg».proof.Proof.Gen.Kernel.Points
import proofs.«116728_j58746562675072_1_alg».proof.Proof.Gen.Kernel.Frame
import proofs.«116728_j58746562675072_1_alg».proof.Proof.Gen.KernelIdeal
import proofs.«116728_j58746562675072_1_alg».proof.Proof.Gen.KernelIdeal.Skeleton
import proofs.«116728_j58746562675072_1_alg».proof.Proof.Gen.KernelIdeal.Launch
import proofs.«116728_j58746562675072_1_alg».proof.Proof.Gen.KernelIdeal.Points
import proofs.«116728_j58746562675072_1_alg».proof.Proof.Gen.KernelIdeal.Frame
import proofs.«116728_j58746562675072_1_alg».proof.Proof.Gen.ReferenceIdeal
import proofs.«116728_j58746562675072_1_alg».proof.Proof.Gen.Pre_finite_inputs
import proofs.«116728_j58746562675072_1_alg».proof.Proof.KernelValue
import proofs.«116728_j58746562675072_1_alg».proof.Proof.RefRun
import proofs.«116728_j58746562675072_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its argument: its generated frame. -/
theorem frame_kernel : Cert.frame_Kernel := fun m ρ _ => Cert.Kernel.Gen.frame m ρ

/-- The idealized kernel runs and keeps its argument: its generated frame. -/
theorem frame_kernelIdeal : Cert.frame_KernelIdeal := fun m ρ _ => Cert.KernelIdeal.Gen.frame m ρ

/-- The reference runs and keeps its argument: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both idealized programs end with the result at the feature function of their (agreeing) arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
